-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000 : Shape := ⟨1, ![800000]⟩
abbrev S50000 : Shape := ⟨1, ![50000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg6 : FVec F S96x96 .f32) (main_arg7 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg6
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  main_v28

def fn {F : FTy → Type} [FloatOps F] (main_arg0 : FVec F S50000x96 .f32) (main_arg1 : IVec S2x800000 32) (main_arg2 : FVec F S800000 .f32) (main_arg3 : IVec S50000 32) (main_arg4 : FVec F S96x96 .f32) (main_arg5 : FVec F S96 .f32) (main_arg6 : FVec F S96x96 .f32) (main_arg7 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S96x96 .f32 := Host.absf main_arg4
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg6 main_arg7 main_v13 main_v16
-- ==== Kernel.lean ====
abbrev S50000x96 : Shape := ⟨2, ![50000, 96]⟩
abbrev S2x800000 : Shape := ⟨2, ![2, 800000]⟩
abbrev S800000 : Shape := ⟨1, ![800000]⟩
abbrev S50000 : Shape := ⟨1, ![50000]⟩
abbrev S96x96 : Shape := ⟨2, ![96, 96]⟩
abbrev S96 : Shape := ⟨1, ![96]⟩
abbrev S1x800000 : Shape := ⟨2, ![1, 800000]⟩
abbrev S2000x96 : Shape := ⟨2, ![2000, 96]⟩
abbrev S_ : Shape := ⟨0, ![]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩

abbrev nBuf : Space → Nat
  | .hbm => 126
  | .vmem => 28
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x96, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x96, .f32⟩
  | .hbm, ⟨57, _⟩ => ⟨S800000x1, .f32⟩
  | .hbm, ⟨58, _⟩ => ⟨S800000x96, .f32⟩
  | .hbm, ⟨59, _⟩ => ⟨S800000x96, .f32⟩
  | .hbm, ⟨60, _⟩ => ⟨S_, .f32⟩
  | .hbm, ⟨61, _⟩ => ⟨S50000x96, .f32⟩
  | .hbm, ⟨62, _⟩ => ⟨S800000x1, .i32⟩
  | .hbm, ⟨63, _⟩ => ⟨S50000x96, .f32⟩
  | .hbm, ⟨64, _⟩ => ⟨S50000, .f32⟩
  | .hbm, ⟨65, _⟩ => ⟨S50000x1, .f32⟩
  | .hbm, ⟨66, _⟩ => ⟨S50000x96, .f32⟩
  | .hbm, ⟨67, _⟩ => ⟨S1x96, .f32⟩
  | .hbm, ⟨68, _⟩ => ⟨S50000x96, .f32⟩
  | .hbm, ⟨69, _⟩ => ⟨S50000x96, .f32⟩
  | .hbm, ⟨70, _⟩ => ⟨S_, .f32⟩
  | .hbm, ⟨71, _⟩ => ⟨S50000, .f32⟩
  | .hbm, ⟨72, _⟩ => ⟨S800000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .i1⟩
  | .hbm, ⟨80, _⟩ => ⟨S50000, .f32⟩
  | .hbm, ⟨81, _⟩ => ⟨S_, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000, .f32⟩
  | .hbm, ⟨94, _⟩ => ⟨S800000, .f32⟩
  | .hbm, ⟨95, _⟩ => ⟨S_, .i32⟩
  | .hbm, ⟨96, _⟩ => ⟨S800000, .i32⟩
  | .hbm, ⟨97, _⟩ => ⟨S800000, .i1⟩
  | .hbm, ⟨98, _⟩ => ⟨S_, .i32⟩
  | .hbm, ⟨99, _⟩ => ⟨S800000, .i32⟩
  | .hbm, ⟨100, _⟩ => ⟨S800000, .i32⟩
  | .hbm, ⟨101, _⟩ => ⟨S800000, .i32⟩
  | .hbm, ⟨102, _⟩ => ⟨S800000x1, .i32⟩
  | .hbm, ⟨103, _⟩ => ⟨S800000, .f32⟩
  | .hbm, ⟨104, _⟩ => ⟨S800000, .f32⟩
  | .hbm, ⟨105, _⟩ => ⟨S_, .i32⟩
  | .hbm, ⟨106, _⟩ => ⟨S800000, .i32⟩
  | .hbm, ⟨107, _⟩ => ⟨S800000, .i1⟩
  | .hbm, ⟨108, _⟩ => ⟨S_, .i32⟩
  | .hbm, ⟨109, _⟩ => ⟨S800000, .i32⟩
  | .hbm, ⟨110, _⟩ => ⟨S800000, .i32⟩
  | .hbm, ⟨111, _⟩ => ⟨S800000, .i32⟩
  | .hbm, ⟨112, _⟩ => ⟨S800000x1, .i32⟩
  | .hbm, ⟨113, _⟩ => ⟨S800000x96, .f32⟩
  | .hbm, ⟨114, _⟩ => ⟨S800000x1, .f32⟩
  | .hbm, ⟨115, _⟩ => ⟨S800000x96, .f32⟩
  | .hbm, ⟨116, _⟩ => ⟨S800000x96, .f32⟩
  | .hbm, ⟨117, _⟩ => ⟨S_, .f32⟩
  | .hbm, ⟨118, _⟩ => ⟨S50000x96, .f32⟩
  | .hbm, ⟨119, _⟩ => ⟨S800000x1, .i32⟩
  | .hbm, ⟨120, _⟩ => ⟨S50000x96, .f32⟩
  | .hbm, ⟨121, _⟩ => ⟨S50000, .f32⟩
  | .hbm, ⟨122, _⟩ => ⟨S50000x1, .f32⟩
  | .hbm, ⟨123, _⟩ => ⟨S50000x96, .f32⟩
  | .hbm, ⟨124, _⟩ => ⟨S1x96, .f32⟩
  | .hbm, ⟨125, _⟩ => ⟨S50000x96, .f32⟩
  | .local _ .vmem, ⟨0, _⟩ => ⟨S2000x96, .f32⟩
  | .local _ .vmem, ⟨1, _⟩ => ⟨S2000x96, .f32⟩
  | .local _ .vmem, ⟨2, _⟩ => ⟨S96x96, .f32⟩
  | .local _ .vmem, ⟨3, _⟩ => ⟨S2000x96, .f32⟩
  | .local _ .vmem, ⟨4, _⟩ => ⟨S2000x96, .f32⟩
  | .local _ .vmem, ⟨5, _⟩ => ⟨S2000x96, .f32⟩
  | .local _ .vmem, ⟨6, _⟩ => ⟨S2000x96, .f32⟩
  | .local _ .vmem, ⟨7, _⟩ => ⟨S2000x96, .f32⟩
  | .local _ .vmem, ⟨8, _⟩ => ⟨S2000x96, .f32⟩
  | .local _ .vmem, ⟨9, _⟩ => ⟨S2000x96, .f32⟩
  | .local _ .vmem, ⟨10, _⟩ => ⟨S2000x96, .f32⟩
  | .local _ .vmem, ⟨11, _⟩ => ⟨S1x96, .f32⟩
  | .local _ .vmem, ⟨12, _⟩ => ⟨S2000x96, .f32⟩
  | .local _ .vmem, ⟨13, _⟩ => ⟨S2000x96, .f32⟩
  | .local _ .vmem, ⟨14, _⟩ => ⟨S2000x96, .f32⟩
  | .local _ .vmem, ⟨15, _⟩ => ⟨S2000x96, .f32⟩
  | .local _ .vmem, ⟨16, _⟩ => ⟨S96x96, .f32⟩
  | .local _ .vmem, ⟨17, _⟩ => ⟨S2000x96, .f32⟩
  | .local _ .vmem, ⟨18, _⟩ => ⟨S2000x96, .f32⟩
  | .local _ .vmem, ⟨19, _⟩ => ⟨S2000x96, .f32⟩
  | .local _ .vmem, ⟨20, _⟩ => ⟨S2000x96, .f32⟩
  | .local _ .vmem, ⟨21, _⟩ => ⟨S2000x96, .f32⟩
  | .local _ .vmem, ⟨22, _⟩ => ⟨S2000x96, .f32⟩
  | .local _ .vmem, ⟨23, _⟩ => ⟨S2000x96, .f32⟩
  | .local _ .vmem, ⟨24, _⟩ => ⟨S2000x96, .f32⟩
  | .local _ .vmem, ⟨25, _⟩ => ⟨S1x96, .f32⟩
  | .local _ .vmem, ⟨26, _⟩ => ⟨S2000x96, .f32⟩
  | .local _ .vmem, ⟨27, _⟩ => ⟨S2000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_call1_v0 : Ref sig .tc := ⟨.hbm, 82, rfl⟩
abbrev main_call1_v1 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_c_14 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x96 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x96_S2000x96_0_0 : ∀ a, (![0, 0] : Fin 2 → Nat) a + S2000x96.size a ≤ S2000x96.size a
  h_S2000x96 : 0 < S2000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  shapeCasts_S96_S1x96 : S96.ShapeCasts S1x96
  shapeCasts_S2000x96_S2000x96 : S2000x96.ShapeCasts S2000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  dot_S2000x96_S96x96_S2000x96_1_0_0_1_n_n_wf : DotDims.WF S2000x96 S96x96 S2000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .f32 = 32 ∨ (Rect.block (s := S50000x96) S2000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x96.size a ≤ S50000x96.size a
  hwx1_1 : ∀ i : grid1.Coords, EltTy.bits .f32 = 32 ∨ (Rect.block (s := S50000x96) S2000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x96.size a ≤ S50000x96.size a
  hwx1_2 : ∀ i : grid1.Coords, EltTy.bits .f32 = 32 ∨ (Rect.block (s := S50000x96) S2000x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x96.size a ≤ S50000x96.size a
  hwx1_4 : ∀ i : grid1.Coords, EltTy.bits .f32 = 32 ∨ (Rect.block (s := S50000x96) S2000x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x96.size a ≤ S50000x96.size a
  hwx2_2 : ∀ i : grid2.Coords, EltTy.bits .f32 = 32 ∨ (Rect.block (s := S50000x96) S2000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x96.size a ≤ S50000x96.size a
  hwx3_0 : ∀ i : grid3.Coords, EltTy.bits .f32 = 32 ∨ (Rect.block (s := S50000x96) S2000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x96.size a ≤ S50000x96.size a
  hwx3_1 : ∀ i : grid3.Coords, EltTy.bits .f32 = 32 ∨ (Rect.block (s := S50000x96) S2000x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x96.size a ≤ S50000x96.size a
  hwx3_2 : ∀ i : grid3.Coords, EltTy.bits .f32 = 32 ∨ (Rect.block (s := S50000x96) S2000x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x96.size a ≤ S50000x96.size a
  hwx3_4 : ∀ i : grid3.Coords, EltTy.bits .f32 = 32 ∨ (Rect.block (s := S50000x96) S2000x96.size (cc3_transform_4 i) (hinb3_4 i)).WholeWords (EltTy.packing .f32)

variable [Facts₀]

def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x96.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v86) S2000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S2000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v89) S2000x96.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v90) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v91) S2000x96.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000 : Shape := ⟨1, ![800000]⟩
abbrev S50000 : Shape := ⟨1, ![50000]⟩
abbrev S96x96 : Shape := ⟨2, ![96, 96]⟩
abbrev S96 : Shape := ⟨1, ![96]⟩
abbrev S1x800000 : Shape := ⟨2, ![1, 800000]⟩
abbrev S_ : Shape := ⟨0, ![]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩

abbrev nBuf : Space → Nat
  | .hbm => 138
  | .vmem => 0
  | .smem => 0
  | _ => 0

abbrev hbmTy0_0 (i : Nat) : BufTy := match i % 128 with
  | 0 => ⟨S50000x96, .f32⟩
  | 1 => ⟨S2x800000, .i32⟩
  | 2 => ⟨S800000, .f32⟩
  | 3 => ⟨S50000, .i32⟩
  | 4 => ⟨S96x96, .f32⟩
  | 5 => ⟨S96, .f32⟩
  | 6 => ⟨S96x96, .f32⟩
  | 7 => ⟨S96, .f32⟩
  | 8 => ⟨S1x800000, .i32⟩
  | 9 => ⟨S800000, .i32⟩
  | 10 => ⟨S1x800000, .i32⟩
  | 11 => ⟨S800000, .i32⟩
  | 12 => ⟨S50000x96, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x96, .f32⟩
  | 57 => ⟨S800000x1, .f32⟩
  | 58 => ⟨S800000x96, .f32⟩
  | 59 => ⟨S800000x96, .f32⟩
  | 60 => ⟨S_, .f32⟩
  | 61 => ⟨S50000x96, .f32⟩
  | 62 => ⟨S800000x1, .i32⟩
  | 63 => ⟨S50000x96, .f32⟩
  | 64 => ⟨S50000, .f32⟩
  | 65 => ⟨S50000x1, .f32⟩
  | 66 => ⟨S50000x96, .f32⟩
  | 67 => ⟨S50000x96, .f32⟩
  | 68 => ⟨S50000x96, .f32⟩
  | 69 => ⟨S1x96, .f32⟩
  | 70 => ⟨S50000x96, .f32⟩
  | 71 => ⟨S50000x96, .f32⟩
  | 72 => ⟨S_, .f32⟩
  | 73 => ⟨S50000x96, .f32⟩
  | 74 => ⟨S50000x96, .f32⟩
  | 75 => ⟨S50000x96, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000, .f32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S800000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x96, .f32⟩
  | 120 => ⟨S800000x1, .f32⟩
  | 121 => ⟨S800000x96, .f32⟩
  | 122 => ⟨S800000x96, .f32⟩
  | 123 => ⟨S_, .f32⟩
  | 124 => ⟨S50000x96, .f32⟩
  | 125 => ⟨S800000x1, .i32⟩
  | 126 => ⟨S50000x96, .f32⟩
  | 127 => ⟨S50000, .f32⟩
  | _ => ⟨S50000x96, .f32⟩

abbrev hbmTy0_1 (i : Nat) : BufTy := match i % 128 with
  | 0 => ⟨S50000x1, .f32⟩
  | 1 => ⟨S50000x96, .f32⟩
  | 2 => ⟨S50000x96, .f32⟩
  | 3 => ⟨S50000x96, .f32⟩
  | 4 => ⟨S1x96, .f32⟩
  | 5 => ⟨S50000x96, .f32⟩
  | 6 => ⟨S50000x96, .f32⟩
  | 7 => ⟨S_, .f32⟩
  | 8 => ⟨S50000x96, .f32⟩
  | 9 => ⟨S50000x96, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v61 : Ref sig .tc := ⟨.hbm, 90, rfl⟩
abbrev main_c_13 : Ref sig .tc := ⟨.hbm, 91, rfl⟩
abbrev main_v62 : Ref sig .tc := ⟨.hbm, 92, rfl⟩
abbrev main_v63 : Ref sig .tc := ⟨.hbm, 93, rfl⟩
abbrev main_c_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_17 : Ref sig .tc := ⟨.hbm, 111, rfl⟩
abbrev main_v78 : Ref sig .tc := ⟨.hbm, 112, rfl⟩
abbrev main_v79 : Ref sig .tc := ⟨.hbm, 113, rfl⟩
abbrev main_c_18 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_19 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_call3_cst : Ref sig .tc := ⟨.hbm, 135, rfl⟩
abbrev main_call3_v0 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  dot_S50000x96_S96x96_S50000x96_1_0_0_1_n_n_wf : DotDims.WF S50000x96 S96x96 S50000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.Spec.lean ====
/-
  One graph-convolution layer, as a function of its arrays.

  Both programs compute, twice over, the same layer: a dense product h = x · W; the degree of every node (the edge
  weights summed into their target nodes, plus 1 for the self loop); its inverse square root where the degree is
  positive and 0 elsewhere; the symmetric edge normalisation dinv[row] · w · dinv[col]; the messages h[row] scaled by it
  and summed into their target nodes; and finally max (agg + h · dinv² + b, 0).  The index and degree arithmetic is
  the same list of operations in both programs, so it is named here once, operation by operation, and never opened
  again: the two programs differ only in how h and the final combination are produced, and those two steps
  (`dense`, `combine2d`) are the only ones any later module reads at an index.
-/
import proofs.«143305_j2671469658280_1_alg».proof.Proof.Gen.ReferenceIdeal

noncomputable section

namespace Cert.ReferenceIdeal.Spec

open Cert.ReferenceIdeal Cert.ReferenceIdeal.Gen Idealize.ShloMosaic

variable {F : FTy → Type} [FloatOps F]

/-- The source node of every edge: row 0 of the edge list. -/
def rowOf (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The target node of every edge: row 1 of the edge list. -/
def colOf (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- A node's degree: the weights of the edges that end at it, plus 1 for its self loop. -/
def degOf (col : (⟨S800000, .i32⟩ : BufTy).Contents (Elt F)) (ew : (⟨S800000, .f32⟩ : BufTy).Contents (Elt F)) :
    (⟨S50000, .f32⟩ : BufTy).Contents (Elt F) :=
  addf (Host.scatterAdd scatter_S50000_S800000x1_S800000_n_0_0_1 (broadcastInDim S50000 ![] bcast_S_S50000 (constant S_ .f32 0x00000000#32))
      (broadcastInDim S800000x1 ![0] bcast_S800000_S800000x1_0 col) ew)
    (broadcastInDim S50000 ![] bcast_S_S50000 (constant S_ .f32 0x3F800000#32))

/-- deg^(-1/2) where the degree is positive, 0 elsewhere. -/
def dinvOf (col : (⟨S800000, .i32⟩ : BufTy).Contents (Elt F)) (ew : (⟨S800000, .f32⟩ : BufTy).Contents (Elt F)) :
    (⟨S50000, .f32⟩ : BufTy).Contents (Elt F) :=
  select (cmpf .ogt (degOf col ew) (broadcastInDim S50000 ![] bcast_S_S50000 (constant S_ .f32 0x00000000#32)))
    (Host.rsqrt (degOf col ew))
    (broadcastInDim S50000 ![] bcast_S_S50000 (id (constant S_ .f32 0x00000000#32)))

/-- A node list as gather indices: a negative entry counts from the end (50000 is added to it). -/
def nidx (r : (⟨S800000, .i32⟩ : BufTy).Contents (Elt F)) : (⟨S800000x1, .i32⟩ : BufTy).Contents (Elt F) :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- The symmetric normalisation of every edge, dinv[row] · w · dinv[col], from the inverse square-root degrees. -/
def normOf (dinv : (⟨S50000, .f32⟩ : BufTy).Contents (Elt F)) (row col : (⟨S800000, .i32⟩ : BufTy).Contents (Elt F))
    (ew : (⟨S800000, .f32⟩ : BufTy).Contents (Elt F)) : (⟨S800000, .f32⟩ : BufTy).Contents (Elt F) :=
  mulf (mulf (Host.gather gather_S50000_S800000x1_S800000_n_0_n_n_0_1_1 dinv (nidx row)) ew)
    (Host.gather gather_S50000_S800000x1_S800000_n_0_n_n_0_1_1 dinv (nidx col))

/-- The aggregated messages: h[row] · norm summed into the target nodes. -/
def aggOf (dinv : (⟨S50000, .f32⟩ : BufTy).Contents (Elt F)) (row col : (⟨S800000, .i32⟩ : BufTy).Contents (Elt F))
    (ew : (⟨S800000, .f32⟩ : BufTy).Contents (Elt F))
    (h : (⟨S50000x96, .f32⟩ : BufTy).Contents (Elt F)) : (⟨S50000x96, .f32⟩ : BufTy).Contents (Elt F) :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 col)
    (mulf (Host.gather gather_S50000x96_S800000x1_S800000x96_1_0_n_n_0_1_196 h (nidx row))
      (broadcastInDim S800000x96 ![0, 1] bcast_S800000x1_S800000x96_0_1
        (broadcastInDim S800000x1 ![0] bcast_S800000_S800000x1_0 (normOf dinv row col ew))))

/-- The self-loop factor dinv², repeated along every feature. -/
def scaleOf (dinv : (⟨S50000, .f32⟩ : BufTy).Contents (Elt F)) : (⟨S50000x96, .f32⟩ : BufTy).Contents (Elt F) :=
  broadcastInDim S50000x96 ![0, 1] bcast_S50000x1_S50000x96_0_1
    (broadcastInDim S50000x1 ![0] bcast_S50000_S50000x1_0 (mulf dinv dinv))

/-- The dense product x · W. -/
def dense (x : (⟨S50000x96, .f32⟩ : BufTy).Contents (Elt F)) (W : (⟨S96x96, .f32⟩ : BufTy).Contents (Elt F)) :
    (⟨S50000x96, .f32⟩ : BufTy).Contents (Elt F) :=
  Host.dotGeneral dot_S50000x96_S96x96_S50000x96_1_0_0_1_n_n none x W

/-- A bias vector as one row. -/
def rowBias (b : (⟨S96, .f32⟩ : BufTy).Contents (Elt F)) : (⟨S1x96, .f32⟩ : BufTy).Contents (Elt F) :=
  broadcastInDim S1x96 ![1] bcast_S96_S1x96_1 b

/-- The final combination: max ((agg + h · scale) + b, 0), the bias row repeated for every node. -/
def combine2d (agg h scale : (⟨S50000x96, .f32⟩ : BufTy).Contents (Elt F)) (b2d : (⟨S1x96, .f32⟩ : BufTy).Contents (Elt F)) :
    (⟨S50000x96, .f32⟩ : BufTy).Contents (Elt F) :=
  maximumf (addf (addf agg (mulf h scale)) (broadcastInDim S50000x96 ![0, 1] bcast_S1x96_S50000x96_0_1 b2d))
    (broadcastInDim S50000x96 ![] bcast_S_S50000x96 (constant S_ .f32 0x00000000#32))

/-- One layer. -/
def layer (row col : (⟨S800000, .i32⟩ : BufTy).Contents (Elt F)) (ew : (⟨S800000, .f32⟩ : BufTy).Contents (Elt F))
    (x : (⟨S50000x96, .f32⟩ : BufTy).Contents (Elt F)) (W : (⟨S96x96, .f32⟩ : BufTy).Contents (Elt F))
    (b : (⟨S96, .f32⟩ : BufTy).Contents (Elt F)) : (⟨S50000x96, .f32⟩ : BufTy).Contents (Elt F) :=
  combine2d (aggOf (dinvOf col ew) row col ew (dense x W)) (dense x W) (scaleOf (dinvOf col ew)) (rowBias b)

/-- The two layers, one after the other, over the same graph. -/
def out (x : (⟨S50000x96, .f32⟩ : BufTy).Contents (Elt F)) (ei : (⟨S2x800000, .i32⟩ : BufTy).Contents (Elt F))
    (ew : (⟨S800000, .f32⟩ : BufTy).Contents (Elt F))
    (W1 : (⟨S96x96, .f32⟩ : BufTy).Contents (Elt F)) (b1 : (⟨S96, .f32⟩ : BufTy).Contents (Elt F))
    (W2 : (⟨S96x96, .f32⟩ : BufTy).Contents (Elt F)) (b2 : (⟨S96, .f32⟩ : BufTy).Contents (Elt F)) :
    (⟨S50000x96, .f32⟩ : BufTy).Contents (Elt F) :=
  layer (rowOf ei) (colOf ei) ew (layer (rowOf ei) (colOf ei) ew x W1 b1) W2 b2

end Cert.ReferenceIdeal.Spec

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.RegionDense.lean ====
/-
  The two dense-product regions, read as whole arrays.

  Each of the 25 grid points loads rows 2000·t … 2000·t + 1999 of the left array and the whole 96 × 96 right array,
  multiplies them into a zero accumulator and writes the 2000 × 96 block back to the same rows of the output.  The
  blocks tile the output, so after the region the output array is the product of the two arrays as the region
  found them: entry (r, q) is the sum over k < 96 of left (r, k) · right (k, q).
-/
import proofs.«143305_j2671469658280_1_alg».proof.Proof.Gen.KernelIdeal.Frame
import proofs.«143305_j2671469658280_1_alg».proof.Proof.Spec
import proofs.«143305_j2671469658280_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.RegionDense

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The products at an index -/

/-- The block product of region 0 at block index (p, q): the format changes are the identity and the accumulator is
    zero, so it is the sum over k < 96 of xb (p, k) · wb (k, q). -/
private theorem blockProduct0_apply (xb : FVec Ideal S2000x96 .f32) (wb : FVec Ideal S96x96 .f32) (p : Fin 2000) (q : Fin 96) :
    (k0_pay1 (F := Ideal) xb wb) (ix2 p q) = ∑ k : Fin 96, xb (ix2 p k) * wb (ix2 k q) := by
  unfold k0_pay1
  show FloatOps.matmul dot_S2000x96_S96x96_S2000x96_1_0_0_1_n_n none
      (truncf .bf16 xb bitsLt_bf16_f32 : FVec Ideal S2000x96 .bf16) (truncf .bf16 wb bitsLt_bf16_f32 : FVec Ideal S96x96 .bf16)
      (constant S2000x96 .f32 0x00000000#32) (ix2 p q) = _
  rw [Ideal.matmul_constant_zero_apply]
  exact PlainDot.sum_eq dot_S2000x96_S96x96_S2000x96_1_0_0_1_n_n rfl rfl rfl rfl rfl rfl (fun i => xb i) (fun i => wb i) p q

/-- The block product of region 2: the same, after a reshape to the block's own shape, which changes nothing. -/
private theorem blockProduct2_apply (xb : FVec Ideal S2000x96 .f32) (wb : FVec Ideal S96x96 .f32) (p : Fin 2000) (q : Fin 96) :
    (k2_pay1 (F := Ideal) xb wb) (ix2 p q) = ∑ k : Fin 96, xb (ix2 p k) * wb (ix2 k q) := by
  unfold k2_pay1
  show FloatOps.matmul dot_S2000x96_S96x96_S2000x96_1_0_0_1_n_n none
      (truncf .bf16 (shapeCast S2000x96 xb shapeCasts_S2000x96_S2000x96 : FVec Ideal S2000x96 .f32) bitsLt_bf16_f32 : FVec Ideal S2000x96 .bf16)
      (truncf .bf16 wb bitsLt_bf16_f32 : FVec Ideal S96x96 .bf16)
      (constant S2000x96 .f32 0x00000000#32) (ix2 p q) = _
  rw [Ideal.matmul_constant_zero_apply, shapeCast_self]
  exact PlainDot.sum_eq dot_S2000x96_S96x96_S2000x96_1_0_0_1_n_n rfl rfl rfl rfl rfl rfl (fun i => xb i) (fun i => wb i) p q

/-- The reference's dense product at array index (r, q): the sum over k < 96 of a (r, k) · w (k, q). -/
private theorem dense_apply (a : FVec Ideal Cert.ReferenceIdeal.S50000x96 .f32) (w : FVec Ideal Cert.ReferenceIdeal.S96x96 .f32)
    (r : Fin 50000) (q : Fin 96) :
    Cert.ReferenceIdeal.Spec.dense (F := Ideal) a w (ix2 r q) = ∑ k : Fin 96, a (ix2 r k) * w (ix2 k q) := by
  unfold Cert.ReferenceIdeal.Spec.dense
  show FloatOps.dotGeneral Cert.ReferenceIdeal.dot_S50000x96_S96x96_S50000x96_1_0_0_1_n_n none .single a w (ix2 r q) = _
  rw [Ideal.dotGeneral_apply]
  exact PlainDot.sum_eq Cert.ReferenceIdeal.dot_S50000x96_S96x96_S50000x96_1_0_0_1_n_n rfl rfl rfl rfl rfl rfl (fun i => a i) (fun i => w i) r q

-- the TensorCore's buffer contents when the region is entered
variable (V : (c : Dev nD) → (b : Ref sig .tc) → Buf (Elt Ideal) ((c : Thread nD τ).loc b))

/-! ## A block product against the whole product -/

/-- The offsets of a load or store of a whole staging buffer, however the zeros are written. -/
private theorem zeroOffsets : (![0, 0] : Fin 2 → Nat) = fun _ => 0 := funext fun a => by fin_cases a <;> rfl

/-- If xb is rows 2000·t … of `left` and wb is all of `right`, the block product of region 0 at block index y is the
    whole product at the array index i that y names: row 2000·t + y₀, column y₁.  Both sides are the same sum over k. -/
private theorem blockProduct0_eq_dense (left : FVec Ideal S50000x96 .f32) (right : FVec Ideal S96x96 .f32)
    (xb : FVec Ideal S2000x96 .f32) (wb : FVec Ideal S96x96 .f32) (t : Nat)
    (hx : ∀ (y : S2000x96.Idx) (i : S50000x96.Idx), (i 0).val = 2000 * t + (y 0).val → (i 1).val = (y 1).val → xb y = left i)
    (hw : wb = right)
    (y : S2000x96.Idx) (i : S50000x96.Idx) (h0 : (i 0).val = 2000 * t + (y 0).val) (h1 : (i 1).val = (y 1).val) :
    k0_pay1 (F := Ideal) xb wb y = Cert.ReferenceIdeal.Spec.dense (F := Ideal) left right i := by
  obtain ⟨p, q, rfl⟩ : ∃ (p : Fin 2000) (q : Fin 96), y = ix2 p q := ⟨y 0, y 1, eq_ix2 y⟩
  obtain ⟨r, q', rfl⟩ : ∃ (r : Fin 50000) (q' : Fin 96), i = ix2 r q' := ⟨i 0, i 1, eq_ix2 i⟩
  obtain rfl : q' = q := Fin.ext h1
  rw [blockProduct0_apply, dense_apply, hw]
  exact Finset.sum_congr rfl fun k _ => by rw [hx (ix2 p k) (ix2 r k) h0 rfl]

/-- The same for region 2's block product. -/
private theorem blockProduct2_eq_dense (left : FVec Ideal S50000x96 .f32) (right : FVec Ideal S96x96 .f32)
    (xb : FVec Ideal S2000x96 .f32) (wb : FVec Ideal S96x96 .f32) (t : Nat)
    (hx : ∀ (y : S2000x96.Idx) (i : S50000x96.Idx), (i 0).val = 2000 * t + (y 0).val → (i 1).val = (y 1).val → xb y = left i)
    (hw : wb = right)
    (y : S2000x96.Idx) (i : S50000x96.Idx) (h0 : (i 0).val = 2000 * t + (y 0).val) (h1 : (i 1).val = (y 1).val) :
    k2_pay1 (F := Ideal) xb wb y = Cert.ReferenceIdeal.Spec.dense (F := Ideal) left right i := by
  obtain ⟨p, q, rfl⟩ : ∃ (p : Fin 2000) (q : Fin 96), y = ix2 p q := ⟨y 0, y 1, eq_ix2 y⟩
  obtain ⟨r, q', rfl⟩ : ∃ (r : Fin 50000) (q' : Fin 96), i = ix2 r q' := ⟨i 0, i 1, eq_ix2 i⟩
  obtain rfl : q' = q := Fin.ext h1
  rw [blockProduct2_apply, dense_apply, hw]
  exact Finset.sum_congr rfl fun k _ => by rw [hx (ix2 p k) (ix2 r k) h0 rfl]

/-! ## Region 0 -/

/-- Region 0's block indices over its grid: at point t the left and the output window are at block row t, block
    column 0, and the right window stays at block (0, 0). -/
private theorem blockIndices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 2000·t … 2000·t + 1999 of the left array. -/
private theorem leftBlock0_apply (c : Dev nD) (t : Fin cfg0.N) (y : S2000x96.Idx) (i : S50000x96.Idx)
    (h0 : (i 0).val = 2000 * t.val + (y 0).val) (h1 : (i 1).val = (y 1).val) :
    (iblk0 (F := Ideal) V c 0 t : FVec Ideal S2000x96 .f32) y = (V c main_arg0 : FVec Ideal S50000x96 .f32) i := by
  obtain ⟨e0, e1, -, -, -, -⟩ := blockIndices0 t
  unfold iblk0
  rw [View.read_apply]
  show (V c main_arg0 : FVec Ideal S50000x96 .f32) (((cfg0.win 0).blk t).view.emb y) = _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 96 + 1 * (y 1).val = (i 1).val; rw [e1, h1]; omega

/-- The right window's block at every point is the whole right array. -/
private theorem rightBlock0_eq (c : Dev nD) (t : Fin cfg0.N) :
    (iblk0 (F := Ideal) V c 1 t : FVec Ideal S96x96 .f32) = (V c main_arg4 : FVec Ideal S96x96 .f32) := by
  obtain ⟨-, -, e2, e3, -, -⟩ := blockIndices0 t
  funext y
  unfold iblk0
  rw [View.read_apply]
  show (V c main_arg4 : FVec Ideal S96x96 .f32) (((cfg0.win 1).blk t).view.emb y) = _
  congr 1
  funext a
  apply Fin.ext
  match a with
  | ⟨0, _⟩ => show win0_1.index t (0 : Fin 2) * 96 + 1 * (y 0).val = (y 0).val; rw [e2]; omega
  | ⟨1, _⟩ => show win0_1.index t (1 : Fin 2) * 96 + 1 * (y 1).val = (y 1).val; rw [e3]; omega

/-- What point t writes back is block t of the product of the two arrays as the region found them. -/
private theorem written0 (c : Dev nD) (t : Fin cfg0.N) :
    (dat0 (F := Ideal) V c).flushed 2 t
      = ((cfg0.win 2).blk t).view.read (Elt Ideal) (Cert.ReferenceIdeal.Spec.dense (F := Ideal) (V c main_arg0) (V c main_arg4)) := by
  show (cfg0.win 2).cut (grid0.coords t) ((dat0 V c).after 2 t) = _
  rw [after0_2]
  unfold out0_2
  rw [View.canon_unit_zero zeroOffsets]
  simp only [View.ld_unit_zero (S := S2000x96) zeroOffsets, View.ld_unit_zero (S := S96x96) zeroOffsets]
  obtain ⟨-, -, -, -, e4, e5⟩ := blockIndices0 t
  funext j
  refine blockProduct0_eq_dense (V c main_arg0) (V c main_arg4) (iblk0 V c 0 t) (iblk0 V c 1 t) t.val
    (fun y i h0 h1 => leftBlock0_apply V c t y i h0 h1) (rightBlock0_eq V c t) j (((cfg0.win 2).blk t).view.emb j) ?_ ?_
  · show win0_2.index t (0 : Fin 2) * 2000 + 1 * (j 0).val = 2000 * t.val + (j 0).val
    rw [e4]; omega
  · show win0_2.index t (1 : Fin 2) * 96 + 1 * (j 1).val = (j 1).val
    rw [e5]; omega

/-- An index of the output array is in point t's block iff each coordinate is in the block's range on its axis. -/
private theorem mem_outBlock0 (t : Fin cfg0.N) (i : S50000x96.Idx) :
    i ∈ ((cfg0.win 2).blk t).view.set
      ↔ ∀ a : Fin 2, win0_2.index t a * S2000x96.size a ≤ (i a).val ∧ (i a).val < win0_2.index t a * S2000x96.size a + S2000x96.size a := by
  show i ∈ ((View.whole main_v4).slice (win0_2.rect t)).set ↔ _
  rw [View.set_slice_whole, Rect.mem_set_unit]
  exact Iff.rfl

/-- Every index of the output array is in the block of the point its row falls to: row r belongs to point r / 2000. -/
private theorem covered0 (i : S50000x96.Idx) :
    ∃ t : Fin cfg0.N, (cfg0.win 2).flush t = true ∧ i ∈ ((cfg0.win 2).blk t).view.set := by
  have hr : (i 0).val < 50000 := (i 0).isLt
  have hq : (i 1).val < 96 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, e4, e5⟩ := blockIndices0 t
  refine ⟨t, flush0_2 t, ?_⟩
  rw [mem_outBlock0]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 96 ≤ (i 1).val ∧ (i 1).val < win0_2.index t (1 : Fin 2) * 96 + 96
    rw [e5]; omega

/-- Region 0 leaves x · W1 in its output array. -/
theorem dense0 (c : Dev nD) :
    (dat0 (F := Ideal) V c).arrAt 2 cfg0.N = Cert.ReferenceIdeal.Spec.dense (F := Ideal) (V c main_arg0) (V c main_arg4) :=
  (dat0 (F := Ideal) V c).arrAt_eq_of_cover 2 _ (fun t _ => written0 V c t) covered0

/-! ## Region 2 -/

/-- Region 2's block indices over its grid: at point t the left and the output window are at block row t, block
    column 0, and the right window stays at block (0, 0). -/
private theorem blockIndices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point t is rows 2000·t … 2000·t + 1999 of the left array. -/
private theorem leftBlock2_apply (c : Dev nD) (t : Fin cfg2.N) (y : S2000x96.Idx) (i : S50000x96.Idx)
    (h0 : (i 0).val = 2000 * t.val + (y 0).val) (h1 : (i 1).val = (y 1).val) :
    (iblk2 (F := Ideal) V c 0 t : FVec Ideal S2000x96 .f32) y = (V c main_v47 : FVec Ideal S50000x96 .f32) i := by
  obtain ⟨e0, e1, -, -, -, -⟩ := blockIndices2 t
  unfold iblk2
  rw [View.read_apply]
  show (V c main_v47 : FVec Ideal S50000x96 .f32) (((cfg2.win 0).blk t).view.emb y) = _
  congr 1
  funext a
  apply Fin.ext
  match a with
  | ⟨0, _⟩ => show win2_0.index t (0 : Fin 2) * 2000 + 1 * (y 0).val = (i 0).val; rw [e0, h0]; omega
  | ⟨1, _⟩ => show win2_0.index t (1 : Fin 2) * 96 + 1 * (y 1).val = (i 1).val; rw [e1, h1]; omega

/-- The right window's block at every point is the whole right array. -/
private theorem rightBlock2_eq (c : Dev nD) (t : Fin cfg2.N) :
    (iblk2 (F := Ideal) V c 1 t : FVec Ideal S96x96 .f32) = (V c main_arg6 : FVec Ideal S96x96 .f32) := by
  obtain ⟨-, -, e2, e3, -, -⟩ := blockIndices2 t
  funext y
  unfold iblk2
  rw [View.read_apply]
  show (V c main_arg6 : FVec Ideal S96x96 .f32) (((cfg2.win 1).blk t).view.emb y) = _
  congr 1
  funext a
  apply Fin.ext
  match a with
  | ⟨0, _⟩ => show win2_1.index t (0 : Fin 2) * 96 + 1 * (y 0).val = (y 0).val; rw [e2]; omega
  | ⟨1, _⟩ => show win2_1.index t (1 : Fin 2) * 96 + 1 * (y 1).val = (y 1).val; rw [e3]; omega

/-- What point t writes back is block t of the product of the two arrays as the region found them. -/
private theorem written2 (c : Dev nD) (t : Fin cfg2.N) :
    (dat2 (F := Ideal) V c).flushed 2 t
      = ((cfg2.win 2).blk t).view.read (Elt Ideal) (Cert.ReferenceIdeal.Spec.dense (F := Ideal) (V c main_v47) (V c main_arg6)) := by
  show (cfg2.win 2).cut (grid2.coords t) ((dat2 V c).after 2 t) = _
  rw [after2_2]
  unfold out2_2
  rw [View.canon_unit_zero zeroOffsets]
  simp only [View.ld_unit_zero (S := S2000x96) zeroOffsets, View.ld_unit_zero (S := S96x96) zeroOffsets]
  obtain ⟨-, -, -, -, e4, e5⟩ := blockIndices2 t
  funext j
  refine blockProduct2_eq_dense (V c main_v47) (V c main_arg6) (iblk2 V c 0 t) (iblk2 V c 1 t) t.val
    (fun y i h0 h1 => leftBlock2_apply V c t y i h0 h1) (rightBlock2_eq V c t) j (((cfg2.win 2).blk t).view.emb j) ?_ ?_
  · show win2_2.index t (0 : Fin 2) * 2000 + 1 * (j 0).val = 2000 * t.val + (j 0).val
    rw [e4]; omega
  · show win2_2.index t (1 : Fin 2) * 96 + 1 * (j 1).val = (j 1).val
    rw [e5]; omega

/-- An index of the output array is in point t's block iff each coordinate is in the block's range on its axis. -/
private theorem mem_outBlock2 (t : Fin cfg2.N) (i : S50000x96.Idx) :
    i ∈ ((cfg2.win 2).blk t).view.set
      ↔ ∀ a : Fin 2, win2_2.index t a * S2000x96.size a ≤ (i a).val ∧ (i a).val < win2_2.index t a * S2000x96.size a + S2000x96.size a := by
  show i ∈ ((View.whole main_v48).slice (win2_2.rect t)).set ↔ _
  rw [View.set_slice_whole, Rect.mem_set_unit]
  exact Iff.rfl

/-- Every index of the output array is in the block of the point its row falls to: row r belongs to point r / 2000. -/
private theorem covered2 (i : S50000x96.Idx) :
    ∃ t : Fin cfg2.N, (cfg2.win 2).flush t = true ∧ i ∈ ((cfg2.win 2).blk t).view.set := by
  have hr : (i 0).val < 50000 := (i 0).isLt
  have hq : (i 1).val < 96 := (i 1).isLt
  have hN : cfg2.N = 25 := N_2
  obtain ⟨t, ht⟩ : ∃ t : Fin cfg2.N, t.val = (i 0).val / 2000 := ⟨⟨(i 0).val / 2000, by omega⟩, rfl⟩
  obtain ⟨-, -, -, -, e4, e5⟩ := blockIndices2 t
  refine ⟨t, flush2_2 t, ?_⟩
  rw [mem_outBlock2]
  intro a
  match a with
  | ⟨0, _⟩ =>
    show win2_2.index t (0 : Fin 2) * 2000 ≤ (i 0).val ∧ (i 0).val < win2_2.index t (0 : Fin 2) * 2000 + 2000
    rw [e4, ht]; omega
  | ⟨1, _⟩ =>
    show win2_2.index t (1 : Fin 2) * 96 ≤ (i 1).val ∧ (i 1).val < win2_2.index t (1 : Fin 2) * 96 + 96
    rw [e5]; omega

/-- Region 2 leaves (the first layer's output) · W2 in its output array. -/
theorem dense2 (c : Dev nD) :
    (dat2 (F := Ideal) V c).arrAt 2 cfg2.N = Cert.ReferenceIdeal.Spec.dense (F := Ideal) (V c main_v47) (V c main_arg6) :=
  (dat2 (F := Ideal) V c).arrAt_eq_of_cover 2 _ (fun t _ => written2 V c t) covered2

end Cert.KernelIdeal.RegionDense

end
-- ==== Proof.RegionCombine.lean ====
/-
  The two combining regions, read as whole arrays.

  Each of the 25 grid points loads rows 2000·t … 2000·t + 1999 of the aggregated messages, of the dense product and of
  the self-loop factor, and the one bias row, and writes max ((agg + h · scale) + b, 0) back to the same rows of the
  output.  The blocks tile the output, so after the region the output array is that expression of the four arrays as
  the region found them, entry by entry.
-/
import proofs.«143305_j2671469658280_1_alg».proof.Proof.Gen.KernelIdeal.Frame
import proofs.«143305_j2671469658280_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionCombine

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## One entry of a block, and one entry of the specification -/

/-- The zero word both sides compare against. -/
abbrev zeroWord : Ideal .f32 := Ideal.ofBits .f32 0x00000000#32

/-- Entry (p, q) of what the first combining body computes from its four loaded blocks: the shape casts are between
    equal shapes, the bias row is repeated down the rows, and the rest is pointwise. -/
theorem pay1_at (a h s : Vec Ideal S2000x96 .f32) (b : Vec Ideal S1x96 .f32) (p : Fin 2000) (q : Fin 96) :
    k1_pay1 a h s b (ix2 p q)
      = max ((a (ix2 p q) + h (ix2 p q) * s (ix2 p q)) + b (ix2 (0 : Fin 1) q)) zeroWord := by
  unfold k1_pay1
  simp only [shapeCast_self]
  rw [maximumf_apply, addf_apply, addf_apply, mulf_apply, broadcast_apply, broadcastTo_1b_ab_apply]
  rfl

/-- A 1 × 96 row repeated over 50000 rows reads, at (r, q), the row at q. -/
theorem biasRows_at (hb : S1x96.BroadcastsInDim S50000x96 (![0, 1] : Fin 2 → Fin S50000x96.rank))
    (b2d : Vec Ideal S1x96 .f32) (r : Fin 50000) (q : Fin 96) :
    broadcastInDim S50000x96 ![0, 1] hb b2d (ix2 r q) = b2d (ix2 (0 : Fin 1) q) :=
  broadcastInDim_apply _ hb b2d (ix2 r q) (ix2 (0 : Fin 1) q) fun a => by
    match a with
    | ⟨0, _⟩ => rfl
    | ⟨1, _⟩ => rfl

/-- A scalar repeated over the whole array reads the scalar everywhere. -/
theorem scalarEverywhere_at (hz : S_.BroadcastsInDim S50000x96 (![] : Fin 0 → Fin S50000x96.rank))
    (z : Vec Ideal S_ .f32) (i : S50000x96.Idx) :
    broadcastInDim S50000x96 ![] hz z i = z ix0 :=
  broadcastInDim_apply _ hz z i ix0 fun a => a.elim0

/-- Entry (r, q) of the specification's combination: pointwise but for the bias row, repeated for every node, and
    the zero constant, repeated everywhere. -/
theorem combine2d_at (agg h scale : (⟨S50000x96, .f32⟩ : BufTy).Contents (Elt Ideal))
    (b2d : (⟨S1x96, .f32⟩ : BufTy).Contents (Elt Ideal)) (r : Fin 50000) (q : Fin 96) :
    Cert.ReferenceIdeal.Spec.combine2d (F := Ideal) agg h scale b2d (ix2 r q)
      = max ((agg (ix2 r q) + h (ix2 r q) * scale (ix2 r q)) + b2d (ix2 (0 : Fin 1) q)) zeroWord := by
  unfold Cert.ReferenceIdeal.Spec.combine2d
  rw [maximumf_apply, addf_apply, addf_apply, mulf_apply, biasRows_at, scalarEverywhere_at, constant_apply]

/-- Entry j of a computed block is entry i of the specification's combination, as soon as the three row blocks
    agree with their arrays at (j, i), j and i have the same column, and the bias row is the array's. -/
theorem pay1_eq_combine2d (a h s : Vec Ideal S2000x96 .f32) (b : Vec Ideal S1x96 .f32)
    (A H S : Vec Ideal S50000x96 .f32) (B : Vec Ideal S1x96 .f32) (j : S2000x96.Idx) (i : S50000x96.Idx)
    (hq : (j 1).val = (i 1).val) (ha : a j = A i) (hh : h j = H i) (hs : s j = S i)
    (hb : ∀ q : Fin 96, b (ix2 (0 : Fin 1) q) = B (ix2 (0 : Fin 1) q)) :
    k1_pay1 a h s b j = Cert.ReferenceIdeal.Spec.combine2d (F := Ideal) A H S B i := by
  obtain ⟨p, q, rfl⟩ : ∃ (p : Fin 2000) (q : Fin 96), j = ix2 p q := ⟨j 0, j 1, eq_ix2 j⟩
  obtain ⟨r, q', rfl⟩ : ∃ (r : Fin 50000) (q' : Fin 96), i = ix2 r q' := ⟨i 0, i 1, eq_ix2 i⟩
  obtain rfl : q = q' := Fin.ext hq
  rw [pay1_at, combine2d_at, ha, hh, hs, hb]

/-- The second combining body computes what the first does, so its blocks' entries are the specification's under
    the same agreements. -/
theorem pay3_eq_combine2d (a h s : Vec Ideal S2000x96 .f32) (b : Vec Ideal S1x96 .f32)
    (A H S : Vec Ideal S50000x96 .f32) (B : Vec Ideal S1x96 .f32) (j : S2000x96.Idx) (i : S50000x96.Idx)
    (hq : (j 1).val = (i 1).val) (ha : a j = A i) (hh : h j = H i) (hs : s j = S i)
    (hb : ∀ q : Fin 96, b (ix2 (0 : Fin 1) q) = B (ix2 (0 : Fin 1) q)) :
    k3_pay1 a h s b j = Cert.ReferenceIdeal.Spec.combine2d (F := Ideal) A H S B i :=
  pay1_eq_combine2d a h s b A H S B j i hq ha hh hs hb

/-! ## Region 1 -/

-- the TensorCore's buffer contents when the region is entered
variable (V : (c : Dev nD) → (b : Ref sig .tc) → Buf (Elt Ideal) ((c : Thread nD τ).loc b))

/-- The zero offsets of a whole-buffer access, as a constant function. -/
theorem zeros2 : (![0, 0] : Fin 2 → Nat) = fun _ => 0 :=
  funext fun a => by match a with | ⟨0, _⟩ => rfl | ⟨1, _⟩ => rfl

/-- The index maps at each of the 25 points: the three row windows and the output window are at block row t and
    block column 0; the bias window stays at block (0, 0). -/
theorem idx_facts1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the specification's combination of the four arrays as the region finds
    them. -/
theorem flushed1_eq (c : Dev nD) (t : Fin cfg1.N) :
    (dat1 (F := Ideal) V c).flushed 4 t
      = ((cfg1.win 4).blk t).view.read (Elt Ideal)
          (Cert.ReferenceIdeal.Spec.combine2d (F := Ideal) (V c main_v42) (V c main_v4) (V c main_v45) (V c main_v46)) := by
  show (cfg1.win 4).cut (grid1.coords t) ((dat1 V c).after 4 t) = _
  rw [after1_4]
  unfold out1_4
  rw [View.canon_unit_zero zeros2]
  simp only [View.ld_unit_zero (S := S2000x96) zeros2, View.ld_unit_zero (S := S1x96) zeros2]
  obtain ⟨e00, e01, e10, e11, e20, e21, e30, e31, e40, e41⟩ := idx_facts1 t
  funext j
  show k1_pay1 (iblk1 V c 0 t) (iblk1 V c 1 t) (iblk1 V c 2 t) (iblk1 V c 3 t) j
      = Cert.ReferenceIdeal.Spec.combine2d (F := Ideal) (V c main_v42) (V c main_v4) (V c main_v45) (V c main_v46)
          (((cfg1.win 4).blk t).view.emb j)
  -- the three row windows' blocks sit where the output's block sits
  have h0 : ((cfg1.win 0).blk t).view.emb j = ((cfg1.win 4).blk t).view.emb j := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 96 + 1 * (j 1).val = win1_4.index t (1 : Fin 2) * 96 + 1 * (j 1).val; omega
  have h1 : ((cfg1.win 1).blk t).view.emb j = ((cfg1.win 4).blk t).view.emb j := by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 96 + 1 * (j 1).val = win1_4.index t (1 : Fin 2) * 96 + 1 * (j 1).val; omega
  have h2 : ((cfg1.win 2).blk t).view.emb j = ((cfg1.win 4).blk t).view.emb j := by
    funext a; apply Fin.ext
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 96 + 1 * (j 1).val = win1_4.index t (1 : Fin 2) * 96 + 1 * (j 1).val; omega
  -- the bias window's block is the whole bias row
  have h3 : ∀ q : Fin 96, ((cfg1.win 3).blk t).view.emb (ix2 (0 : Fin 1) q) = ix2 (0 : Fin 1) q := by
    intro q; funext a; apply Fin.ext
    match a with
    | ⟨0, _⟩ => show win1_3.index t (0 : Fin 2) * 1 + 1 * 0 = 0; omega
    | ⟨1, _⟩ => show win1_3.index t (1 : Fin 2) * 96 + 1 * q.val = q.val; omega
  refine pay1_eq_combine2d (iblk1 V c 0 t) (iblk1 V c 1 t) (iblk1 V c 2 t) (iblk1 V c 3 t)
    (V c main_v42) (V c main_v4) (V c main_v45) (V c main_v46) j (((cfg1.win 4).blk t).view.emb j) ?_ ?_ ?_ ?_ ?_
  · show (j 1).val = win1_4.index t (1 : Fin 2) * 96 + 1 * (j 1).val; omega
  · show V c main_v42 (((cfg1.win 0).blk t).view.emb j) = _; rw [h0]
  · show V c main_v4 (((cfg1.win 1).blk t).view.emb j) = _; rw [h1]
  · show V c main_v45 (((cfg1.win 2).blk t).view.emb j) = _; rw [h2]
  · intro q; show V c main_v46 (((cfg1.win 3).blk t).view.emb (ix2 (0 : Fin 1) q)) = _; rw [h3]

/-- An index of the output array is in point t's block iff each coordinate is in the block's range on its axis. -/
theorem mem_blk1 (t : Fin cfg1.N) (i : S50000x96.Idx) :
    i ∈ ((cfg1.win 4).blk t).view.set
      ↔ ∀ a : Fin 2, win1_4.index t a * S2000x96.size a ≤ (i a).val ∧ (i a).val < win1_4.index t a * S2000x96.size a + S2000x96.size a := by
  show i ∈ ((View.whole main_v47).slice (win1_4.rect t)).set ↔ _
  rw [View.set_slice_whole, Rect.mem_set_unit]
  exact Iff.rfl

/-- The 25 blocks of 2000 rows tile the 50000 rows: row r is in the block of point r / 2000. -/
theorem cover1 (i : S50000x96.Idx) :
    ∃ t : Fin cfg1.N, (cfg1.win 4).flush t = true ∧ i ∈ ((cfg1.win 4).blk t).view.set := by
  have hi0 : (i 0).val < 50000 := (i 0).isLt
  have hi1 : (i 1).val < 96 := (i 1).isLt
  refine ⟨⟨(i 0).val / 2000, by show (i 0).val / 2000 < 25; omega⟩, flush1_4 _, ?_⟩
  obtain ⟨-, -, -, -, -, -, -, -, e40, e41⟩ := idx_facts1 ⟨(i 0).val / 2000, by show (i 0).val / 2000 < 25; omega⟩
  rw [mem_blk1]
  intro a
  match a with
  | ⟨0, _⟩ =>
    show win1_4.index _ (0 : Fin 2) * 2000 ≤ (i 0).val ∧ (i 0).val < win1_4.index _ (0 : Fin 2) * 2000 + 2000
    rw [e40]; show (i 0).val / 2000 * 2000 ≤ (i 0).val ∧ (i 0).val < (i 0).val / 2000 * 2000 + 2000; omega
  | ⟨1, _⟩ =>
    show win1_4.index _ (1 : Fin 2) * 96 ≤ (i 1).val ∧ (i 1).val < win1_4.index _ (1 : Fin 2) * 96 + 96
    rw [e41]; omega

/-- Region 1 leaves the first layer's output in its output array. -/
theorem combine1 (c : Dev nD) :
    (dat1 (F := Ideal) V c).arrAt 4 cfg1.N
      = Cert.ReferenceIdeal.Spec.combine2d (F := Ideal) (V c main_v42) (V c main_v4) (V c main_v45) (V c main_v46) :=
  (dat1 (F := Ideal) V c).arrAt_eq_of_cover 4 _ (fun t _ => flushed1_eq V c t) cover1

/-! ## Region 3: the same region over the second layer's arrays -/

/-- The index maps at each of the 25 points: the three row windows and the output window are at block row t and
    block column 0; the bias window stays at block (0, 0). -/
theorem idx_facts3 : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the specification's combination of the four arrays as the region finds
    them. -/
theorem flushed3_eq (c : Dev nD) (t : Fin cfg3.N) :
    (dat3 (F := Ideal) V c).flushed 4 t
      = ((cfg3.win 4).blk t).view.read (Elt Ideal)
          (Cert.ReferenceIdeal.Spec.combine2d (F := Ideal) (V c main_v86) (V c main_v48) (V c main_v89) (V c main_v90)) := by
  show (cfg3.win 4).cut (grid3.coords t) ((dat3 V c).after 4 t) = _
  rw [after3_4]
  unfold out3_4
  rw [View.canon_unit_zero zeros2]
  simp only [View.ld_unit_zero (S := S2000x96) zeros2, View.ld_unit_zero (S := S1x96) zeros2]
  obtain ⟨e00, e01, e10, e11, e20, e21, e30, e31, e40, e41⟩ := idx_facts3 t
  funext j
  show k3_pay1 (iblk3 V c 0 t) (iblk3 V c 1 t) (iblk3 V c 2 t) (iblk3 V c 3 t) j
      = Cert.ReferenceIdeal.Spec.combine2d (F := Ideal) (V c main_v86) (V c main_v48) (V c main_v89) (V c main_v90)
          (((cfg3.win 4).blk t).view.emb j)
  -- the three row windows' blocks sit where the output's block sits
  have h0 : ((cfg3.win 0).blk t).view.emb j = ((cfg3.win 4).blk t).view.emb j := by
    funext a; apply Fin.ext
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 96 + 1 * (j 1).val = win3_4.index t (1 : Fin 2) * 96 + 1 * (j 1).val; omega
  have h1 : ((cfg3.win 1).blk t).view.emb j = ((cfg3.win 4).blk t).view.emb j := by
    funext a; apply Fin.ext
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 96 + 1 * (j 1).val = win3_4.index t (1 : Fin 2) * 96 + 1 * (j 1).val; omega
  have h2 : ((cfg3.win 2).blk t).view.emb j = ((cfg3.win 4).blk t).view.emb j := by
    funext a; apply Fin.ext
    match a with
    | ⟨0, _⟩ => show win3_2.index t (0 : Fin 2) * 2000 + 1 * (j 0).val = win3_4.index t (0 : Fin 2) * 2000 + 1 * (j 0).val; omega
    | ⟨1, _⟩ => show win3_2.index t (1 : Fin 2) * 96 + 1 * (j 1).val = win3_4.index t (1 : Fin 2) * 96 + 1 * (j 1).val; omega
  -- the bias window's block is the whole bias row
  have h3 : ∀ q : Fin 96, ((cfg3.win 3).blk t).view.emb (ix2 (0 : Fin 1) q) = ix2 (0 : Fin 1) q := by
    intro q; funext a; apply Fin.ext
    match a with
    | ⟨0, _⟩ => show win3_3.index t (0 : Fin 2) * 1 + 1 * 0 = 0; omega
    | ⟨1, _⟩ => show win3_3.index t (1 : Fin 2) * 96 + 1 * q.val = q.val; omega
  refine pay3_eq_combine2d (iblk3 V c 0 t) (iblk3 V c 1 t) (iblk3 V c 2 t) (iblk3 V c 3 t)
    (V c main_v86) (V c main_v48) (V c main_v89) (V c main_v90) j (((cfg3.win 4).blk t).view.emb j) ?_ ?_ ?_ ?_ ?_
  · show (j 1).val = win3_4.index t (1 : Fin 2) * 96 + 1 * (j 1).val; omega
  · show V c main_v86 (((cfg3.win 0).blk t).view.emb j) = _; rw [h0]
  · show V c main_v48 (((cfg3.win 1).blk t).view.emb j) = _; rw [h1]
  · show V c main_v89 (((cfg3.win 2).blk t).view.emb j) = _; rw [h2]
  · intro q; show V c main_v90 (((cfg3.win 3).blk t).view.emb (ix2 (0 : Fin 1) q)) = _; rw [h3]

/-- An index of the output array is in point t's block iff each coordinate is in the block's range on its axis. -/
theorem mem_blk3 (t : Fin cfg3.N) (i : S50000x96.Idx) :
    i ∈ ((cfg3.win 4).blk t).view.set
      ↔ ∀ a : Fin 2, win3_4.index t a * S2000x96.size a ≤ (i a).val ∧ (i a).val < win3_4.index t a * S2000x96.size a + S2000x96.size a := by
  show i ∈ ((View.whole main_v91).slice (win3_4.rect t)).set ↔ _
  rw [View.set_slice_whole, Rect.mem_set_unit]
  exact Iff.rfl

/-- The 25 blocks of 2000 rows tile the 50000 rows: row r is in the block of point r / 2000. -/
theorem cover3 (i : S50000x96.Idx) :
    ∃ t : Fin cfg3.N, (cfg3.win 4).flush t = true ∧ i ∈ ((cfg3.win 4).blk t).view.set := by
  have hi0 : (i 0).val < 50000 := (i 0).isLt
  have hi1 : (i 1).val < 96 := (i 1).isLt
  refine ⟨⟨(i 0).val / 2000, by show (i 0).val / 2000 < 25; omega⟩, flush3_4 _, ?_⟩
  obtain ⟨-, -, -, -, -, -, -, -, e40, e41⟩ := idx_facts3 ⟨(i 0).val / 2000, by show (i 0).val / 2000 < 25; omega⟩
  rw [mem_blk3]
  intro a
  match a with
  | ⟨0, _⟩ =>
    show win3_4.index _ (0 : Fin 2) * 2000 ≤ (i 0).val ∧ (i 0).val < win3_4.index _ (0 : Fin 2) * 2000 + 2000
    rw [e40]; show (i 0).val / 2000 * 2000 ≤ (i 0).val ∧ (i 0).val < (i 0).val / 2000 * 2000 + 2000; omega
  | ⟨1, _⟩ =>
    show win3_4.index _ (1 : Fin 2) * 96 ≤ (i 1).val ∧ (i 1).val < win3_4.index _ (1 : Fin 2) * 96 + 96
    rw [e41]; omega

/-- Region 3 leaves the second layer's output in its output array. -/
theorem combine3 (c : Dev nD) :
    (dat3 (F := Ideal) V c).arrAt 4 cfg3.N
      = Cert.ReferenceIdeal.Spec.combine2d (F := Ideal) (V c main_v86) (V c main_v48) (V c main_v89) (V c main_v90) :=
  (dat3 (F := Ideal) V c).arrAt_eq_of_cover 4 _ (fun t _ => flushed3_eq V c t) cover3

end Cert.KernelIdeal.RegionCombine

end
-- ==== Proof.KernelValue.lean ====
/-
  The kernel program's result, read as the two layers of Spec.lean.

  The program is eleven segments: four host operations that split the edge list into source and target nodes; the
  first dense product (a kernel region); fifty-five host operations that compute degrees, normalisation, aggregated
  messages, the self-loop factor and the bias row; the first combination (a region); the second dense product (a
  region, reading the first layer's output); the same fifty-five host operations over the second product; the second
  combination (a region).  The contents of the buffers at each boundary are a fold from the launch memory.  Here the
  fold is walked backwards from the result buffer: a region's output array is what RegionDense / RegionCombine say of
  the region's entry contents; a host stretch's result is its operations' term over the stretch's entry contents,
  which is one of Spec.lean's named pieces; and a buffer that a segment does not write is carried unchanged.
-/
import proofs.«143305_j2671469658280_1_alg».proof.Proof.Gen.KernelIdeal.Frame
import proofs.«143305_j2671469658280_1_alg».proof.Proof.Spec
import proofs.«143305_j2671469658280_1_alg».proof.Proof.RegionDense
import proofs.«143305_j2671469658280_1_alg».proof.Proof.RegionCombine
import Idealize.ShloMosaic.Lib.Pipeline.Value
import Idealize.ShloMosaic.Lib.StableHlo.Run

set_option maxRecDepth 16384

set_option maxHeartbeats 400000

noncomputable section

namespace Cert.KernelIdeal.KernelValue

open Cert.KernelIdeal Cert.KernelIdeal.Gen
open Idealize.ShloMosaic Idealize.ShloMosaic.TcCoe Idealize.SL.Sem Idealize.ShloMosaic.StableHlo

/-! ## The bias row -/

/-- A vector of 96 entries reshaped to one row is the vector repeated along a new leading axis of length 1: both
    read entry q at (0, q). -/
theorem reshape_eq_rowBias (b : (⟨S96, .f32⟩ : BufTy).Contents (Elt Ideal)) :
    shapeCast S1x96 b shapeCasts_S96_S1x96 = Cert.ReferenceIdeal.Spec.rowBias (F := Ideal) b := by
  funext j
  unfold Cert.ReferenceIdeal.Spec.rowBias
  rw [shapeCast_addUnit_apply (n := 1) (![96] : Fin 1 → Nat) b shapeCasts_S96_S1x96 j]
  refine (broadcastInDim_apply _ _ b j (fun a => j a.succ) (fun a => ?_)).symm
  match a with
  | ⟨0, _⟩ => rfl

variable (m : (ℓ : Loc nD τ sig) → Buf (Elt Ideal) ℓ) (ρ : Dev nD → PrngReg)

/-! ## Up to the first region: the edge list split -/

theorem W1_row (c : Dev nD) : W1 m ρ c (Proc.devRef .tc main_v1) = Cert.ReferenceIdeal.Spec.rowOf (F := Ideal) (m ((c : Thread nD τ).loc main_arg1)) := by
  show StableHlo.after hostOps0 (W0 m ρ c) (Proc.devRef .tc main_v1) = _
  after_results
  rfl

theorem W1_col (c : Dev nD) : W1 m ρ c (Proc.devRef .tc main_v3) = Cert.ReferenceIdeal.Spec.colOf (F := Ideal) (m ((c : Thread nD τ).loc main_arg1)) := by
  show StableHlo.after hostOps0 (W0 m ρ c) (Proc.devRef .tc main_v3) = _
  after_results
  rfl

theorem W1_arg (c : Dev nD) (b : Ref sig .tc) (hb : b = main_arg0 ∨ b = main_arg2 ∨ b = main_arg4 ∨ b = main_arg5 ∨ b = main_arg6 ∨ b = main_arg7) :
    W1 m ρ c (Proc.devRef .tc b) = m ((c : Thread nD τ).loc b) := by
  show StableHlo.after hostOps0 (W0 m ρ c) (Proc.devRef .tc b) = _
  rcases hb with rfl | rfl | rfl | rfl | rfl | rfl <;> (after_results <;> rfl)

/-! ## The first dense product -/

theorem W2_dense (c : Dev nD) : W2 m ρ c (Proc.devRef .tc main_v4)
    = Cert.ReferenceIdeal.Spec.dense (F := Ideal) (m ((c : Thread nD τ).loc main_arg0)) (m ((c : Thread nD τ).loc main_arg4)) := by
  refine (W2_arr m ρ c 2).trans ((RegionDense.dense0 (V1 m ρ) c).trans ?_)
  show Cert.ReferenceIdeal.Spec.dense (F := Ideal) (W1 m ρ c (Proc.devRef .tc main_arg0)) (W1 m ρ c (Proc.devRef .tc main_arg4)) = _
  rw [W1_arg m ρ c main_arg0 (by simp), W1_arg m ρ c main_arg4 (by simp)]

/-- The first dense product writes only its own output array. -/
theorem W2_keep (c : Dev nD) (b : Ref sig .tc)
    (hb : b = main_v1 ∨ b = main_v3 ∨ b = main_arg2 ∨ b = main_arg5 ∨ b = main_arg6 ∨ b = main_arg7) :
    W2 m ρ c (Proc.devRef .tc b) = W1 m ρ c (Proc.devRef .tc b) := by
  rcases hb with rfl | rfl | rfl | rfl | rfl | rfl <;> exact W2_of_ne m ρ c _ (by decide)

/-! ## The outlined choice of the first layer: its values pass through their buffers unchanged -/

theorem into_v13 (v : (⟨S50000, .f32⟩ : BufTy).Contents (Elt Ideal)) :
    (TRef.of (sig := sig) (T := ⟨S50000, .f32⟩) main_v13).toBuf (Val := Elt Ideal) v = v := rfl
theorem from_v11 (v : (Proc.devRef (τ := τ) .tc main_v11).ty.Contents (Elt Ideal)) :
    (TRef.of (sig := sig) (T := ⟨S50000, .i1⟩) main_v11).ofBuf (Val := Elt Ideal) v = v := rfl
theorem from_v12 (v : (Proc.devRef (τ := τ) .tc main_v12).ty.Contents (Elt Ideal)) :
    (TRef.of (sig := sig) (T := ⟨S50000, .f32⟩) main_v12).ofBuf (Val := Elt Ideal) v = v := rfl
theorem from_cst_2 (v : (Proc.devRef (τ := τ) .tc main_cst_2).ty.Contents (Elt Ideal)) :
    (TRef.of (sig := sig) (T := ⟨S_, .f32⟩) main_cst_2).ofBuf (Val := Elt Ideal) v = v := rfl
theorem through_call0_v0 (v : (⟨S_, .f32⟩ : BufTy).Contents (Elt Ideal)) :
    (TRef.of (sig := sig) (T := ⟨S_, .f32⟩) main_call0_v0).ofBuf (Val := Elt Ideal)
      ((TRef.of (sig := sig) (T := ⟨S_, .f32⟩) main_call0_v0).toBuf (Val := Elt Ideal) v) = v := rfl
theorem through_call0_v1 (v : (⟨S50000, .f32⟩ : BufTy).Contents (Elt Ideal)) :
    (TRef.of (sig := sig) (T := ⟨S50000, .f32⟩) main_call0_v1).ofBuf (Val := Elt Ideal)
      ((TRef.of (sig := sig) (T := ⟨S50000, .f32⟩) main_call0_v1).toBuf (Val := Elt Ideal) v) = v := rfl

/-! ## The first layer's host operations

Three stretches: the degree, its positivity test and its inverse square root; the choice between the inverse square
root and 0 (an outlined function); then the normalisation, the aggregation, the self-loop factor and the bias row. -/

theorem W3_pos (c : Dev nD) : W3 m ρ c (Proc.devRef .tc main_v11)
    = cmpf .ogt (Cert.ReferenceIdeal.Spec.degOf (F := Ideal) (W2 m ρ c (Proc.devRef .tc main_v3)) (W2 m ρ c (Proc.devRef .tc main_arg2)))
        (broadcastInDim S50000 ![] bcast_S_S50000 (constant (F := Ideal) S_ .f32 0x00000000#32)) := by
  show StableHlo.after hostOps1 (W2 m ρ c) (Proc.devRef .tc main_v11) = _
  after_results_simp
  rfl

theorem W3_rsqrt (c : Dev nD) : W3 m ρ c (Proc.devRef .tc main_v12)
    = (Host.rsqrt (F := Ideal) (φ := .f32) (Cert.ReferenceIdeal.Spec.degOf (F := Ideal) (W2 m ρ c (Proc.devRef .tc main_v3)) (W2 m ρ c (Proc.devRef .tc main_arg2)))
        : (⟨S50000, .f32⟩ : BufTy).Contents (Elt Ideal)) := by
  show StableHlo.after hostOps1 (W2 m ρ c) (Proc.devRef .tc main_v12) = _
  after_results_simp
  rfl

theorem W3_zero (c : Dev nD) : W3 m ρ c (Proc.devRef .tc main_cst_2) = constant (F := Ideal) S_ .f32 0x00000000#32 := by
  show StableHlo.after hostOps1 (W2 m ρ c) (Proc.devRef .tc main_cst_2) = _
  after_results_simp <;> rfl

/-- The outlined choice, over whatever the three buffers it reads hold. -/
theorem W4_choice (c : Dev nD) : W4 m ρ c (Proc.devRef .tc main_v13)
    = select (W3 m ρ c (Proc.devRef .tc main_v11)) (W3 m ρ c (Proc.devRef .tc main_v12))
        (broadcastInDim S50000 ![] bcast_S_S50000 (id (W3 m ρ c (Proc.devRef .tc main_cst_2)))) := by
  show StableHlo.after hostOps1_1 (W3 m ρ c) (Proc.devRef .tc main_v13) = _
  generalize W3 m ρ c = X
  after_results_simp
  refine (into_v13 _).trans ?_
  have h1 := from_v11 (X (Proc.devRef .tc main_v11))
  have h2 := from_v12 (X (Proc.devRef .tc main_v12))
  have h3 := (through_call0_v1 _).trans (congrArg (broadcastInDim S50000 ![] bcast_S_S50000)
    ((through_call0_v0 _).trans (congrArg id (from_cst_2 (X (Proc.devRef .tc main_cst_2))))))
  rw [h1, h2, h3]

theorem W4_dinv (c : Dev nD) : W4 m ρ c (Proc.devRef .tc main_v13)
    = Cert.ReferenceIdeal.Spec.dinvOf (F := Ideal) (W2 m ρ c (Proc.devRef .tc main_v3)) (W2 m ρ c (Proc.devRef .tc main_arg2)) := by
  rw [W4_choice, W3_pos, W3_rsqrt, W3_zero]
  rfl

/-- The first two stretches write none of these. -/
theorem W4_keep (c : Dev nD) (b : Ref sig .tc)
    (hb : b = main_v1 ∨ b = main_v3 ∨ b = main_arg2 ∨ b = main_v4 ∨ b = main_arg5) :
    W4 m ρ c (Proc.devRef .tc b) = W2 m ρ c (Proc.devRef .tc b) := by
  show StableHlo.after hostOps1_1 (StableHlo.after hostOps1 (W2 m ρ c)) (Proc.devRef .tc b) = _
  rcases hb with rfl | rfl | rfl | rfl | rfl <;> (after_results_simp <;> rfl)

theorem W5_agg (c : Dev nD) : W5 m ρ c (Proc.devRef .tc main_v42)
    = Cert.ReferenceIdeal.Spec.aggOf (F := Ideal) (W4 m ρ c (Proc.devRef .tc main_v13)) (W4 m ρ c (Proc.devRef .tc main_v1))
        (W4 m ρ c (Proc.devRef .tc main_v3)) (W4 m ρ c (Proc.devRef .tc main_arg2)) (W4 m ρ c (Proc.devRef .tc main_v4)) := by
  show StableHlo.after hostOps1_2 (W4 m ρ c) (Proc.devRef .tc main_v42) = _
  generalize W4 m ρ c = X
  after_results_simp
  rfl

theorem W5_scale (c : Dev nD) : W5 m ρ c (Proc.devRef .tc main_v45)
    = Cert.ReferenceIdeal.Spec.scaleOf (F := Ideal) (W4 m ρ c (Proc.devRef .tc main_v13)) := by
  show StableHlo.after hostOps1_2 (W4 m ρ c) (Proc.devRef .tc main_v45) = _
  generalize W4 m ρ c = X
  after_results_simp
  rfl

theorem W5_bias (c : Dev nD) : W5 m ρ c (Proc.devRef .tc main_v46)
    = shapeCast S1x96 (W4 m ρ c (Proc.devRef .tc main_arg5)) shapeCasts_S96_S1x96 := by
  show StableHlo.after hostOps1_2 (W4 m ρ c) (Proc.devRef .tc main_v46) = _
  generalize W4 m ρ c = X
  after_results_simp
  rfl

/-- The three stretches write none of these. -/
theorem W5_keep (c : Dev nD) (b : Ref sig .tc)
    (hb : b = main_v1 ∨ b = main_v3 ∨ b = main_arg2 ∨ b = main_v4 ∨ b = main_arg6 ∨ b = main_arg7) :
    W5 m ρ c (Proc.devRef .tc b) = W2 m ρ c (Proc.devRef .tc b) := by
  show StableHlo.after hostOps1_2 (StableHlo.after hostOps1_1 (StableHlo.after hostOps1 (W2 m ρ c))) (Proc.devRef .tc b) = _
  rcases hb with rfl | rfl | rfl | rfl | rfl | rfl <;> (after_results_simp <;> rfl)

/-! ## The launch arrays at the first layer's boundaries -/

theorem W2_row (c : Dev nD) : W2 m ρ c (Proc.devRef .tc main_v1) = Cert.ReferenceIdeal.Spec.rowOf (F := Ideal) (m ((c : Thread nD τ).loc main_arg1)) :=
  (W2_keep m ρ c main_v1 (by simp)).trans (W1_row m ρ c)
theorem W2_col (c : Dev nD) : W2 m ρ c (Proc.devRef .tc main_v3) = Cert.ReferenceIdeal.Spec.colOf (F := Ideal) (m ((c : Thread nD τ).loc main_arg1)) :=
  (W2_keep m ρ c main_v3 (by simp)).trans (W1_col m ρ c)
theorem W2_arg (c : Dev nD) (b : Ref sig .tc) (hb : b = main_arg2 ∨ b = main_arg5 ∨ b = main_arg6 ∨ b = main_arg7) :
    W2 m ρ c (Proc.devRef .tc b) = m ((c : Thread nD τ).loc b) := by
  rcases hb with rfl | rfl | rfl | rfl <;> exact (W2_keep m ρ c _ (by simp)).trans (W1_arg m ρ c _ (by simp))

/-! ## The first combination: the first layer's output -/

theorem W6_layer1 (c : Dev nD) : W6 m ρ c (Proc.devRef .tc main_v47) = (Cert.ReferenceIdeal.Spec.layer (F := Ideal) (Cert.ReferenceIdeal.Spec.rowOf (F := Ideal) (m ((c : Thread nD τ).loc main_arg1))) (Cert.ReferenceIdeal.Spec.colOf (F := Ideal) (m ((c : Thread nD τ).loc main_arg1))) (m ((c : Thread nD τ).loc main_arg2)) (m ((c : Thread nD τ).loc main_arg0)) (m ((c : Thread nD τ).loc main_arg4)) (m ((c : Thread nD τ).loc main_arg5))) := by
  refine (W6_arr m ρ c 4).trans ((RegionCombine.combine1 (V5 m ρ) c).trans ?_)
  show Cert.ReferenceIdeal.Spec.combine2d (F := Ideal) (W5 m ρ c (Proc.devRef .tc main_v42)) (W5 m ρ c (Proc.devRef .tc main_v4))
    (W5 m ρ c (Proc.devRef .tc main_v45)) (W5 m ρ c (Proc.devRef .tc main_v46)) = _
  rw [W5_agg, W5_scale, W5_bias, W5_keep m ρ c main_v4 (by simp), W4_dinv, W4_keep m ρ c main_v1 (by simp),
    W4_keep m ρ c main_v3 (by simp), W4_keep m ρ c main_arg2 (by simp), W4_keep m ρ c main_v4 (by simp),
    W4_keep m ρ c main_arg5 (by simp), W2_dense, W2_row, W2_col, W2_arg m ρ c main_arg2 (by simp),
    W2_arg m ρ c main_arg5 (by simp), reshape_eq_rowBias]
  rfl

/-- The first combination writes only its own output array. -/
theorem W6_keep (c : Dev nD) (b : Ref sig .tc)
    (hb : b = main_v1 ∨ b = main_v3 ∨ b = main_arg2 ∨ b = main_arg6 ∨ b = main_arg7) :
    W6 m ρ c (Proc.devRef .tc b) = W5 m ρ c (Proc.devRef .tc b) := by
  rcases hb with rfl | rfl | rfl | rfl | rfl <;> exact W6_of_ne m ρ c _ (by decide)

theorem W6_row (c : Dev nD) : W6 m ρ c (Proc.devRef .tc main_v1) = Cert.ReferenceIdeal.Spec.rowOf (F := Ideal) (m ((c : Thread nD τ).loc main_arg1)) :=
  (W6_keep m ρ c main_v1 (by simp)).trans ((W5_keep m ρ c main_v1 (by simp)).trans (W2_row m ρ c))
theorem W6_col (c : Dev nD) : W6 m ρ c (Proc.devRef .tc main_v3) = Cert.ReferenceIdeal.Spec.colOf (F := Ideal) (m ((c : Thread nD τ).loc main_arg1)) :=
  (W6_keep m ρ c main_v3 (by simp)).trans ((W5_keep m ρ c main_v3 (by simp)).trans (W2_col m ρ c))
theorem W6_arg (c : Dev nD) (b : Ref sig .tc) (hb : b = main_arg2 ∨ b = main_arg6 ∨ b = main_arg7) :
    W6 m ρ c (Proc.devRef .tc b) = m ((c : Thread nD τ).loc b) := by
  rcases hb with rfl | rfl | rfl <;>
    exact (W6_keep m ρ c _ (by simp)).trans ((W5_keep m ρ c _ (by simp)).trans (W2_arg m ρ c _ (by simp)))

/-! ## The second dense product -/

theorem W7_dense (c : Dev nD) : W7 m ρ c (Proc.devRef .tc main_v48)
    = Cert.ReferenceIdeal.Spec.dense (F := Ideal) (Cert.ReferenceIdeal.Spec.layer (F := Ideal) (Cert.ReferenceIdeal.Spec.rowOf (F := Ideal) (m ((c : Thread nD τ).loc main_arg1))) (Cert.ReferenceIdeal.Spec.colOf (F := Ideal) (m ((c : Thread nD τ).loc main_arg1))) (m ((c : Thread nD τ).loc main_arg2)) (m ((c : Thread nD τ).loc main_arg0)) (m ((c : Thread nD τ).loc main_arg4)) (m ((c : Thread nD τ).loc main_arg5))) (m ((c : Thread nD τ).loc main_arg6)) := by
  refine (W7_arr m ρ c 2).trans ((RegionDense.dense2 (V6 m ρ) c).trans ?_)
  show Cert.ReferenceIdeal.Spec.dense (F := Ideal) (W6 m ρ c (Proc.devRef .tc main_v47)) (W6 m ρ c (Proc.devRef .tc main_arg6)) = _
  rw [W6_layer1, W6_arg m ρ c main_arg6 (by simp)]

/-- The second dense product writes only its own output array. -/
theorem W7_keep (c : Dev nD) (b : Ref sig .tc) (hb : b = main_v1 ∨ b = main_v3 ∨ b = main_arg2 ∨ b = main_arg7) :
    W7 m ρ c (Proc.devRef .tc b) = W6 m ρ c (Proc.devRef .tc b) := by
  rcases hb with rfl | rfl | rfl | rfl <;> exact W7_of_ne m ρ c _ (by decide)

theorem W7_row (c : Dev nD) : W7 m ρ c (Proc.devRef .tc main_v1) = Cert.ReferenceIdeal.Spec.rowOf (F := Ideal) (m ((c : Thread nD τ).loc main_arg1)) :=
  (W7_keep m ρ c main_v1 (by simp)).trans (W6_row m ρ c)
theorem W7_col (c : Dev nD) : W7 m ρ c (Proc.devRef .tc main_v3) = Cert.ReferenceIdeal.Spec.colOf (F := Ideal) (m ((c : Thread nD τ).loc main_arg1)) :=
  (W7_keep m ρ c main_v3 (by simp)).trans (W6_col m ρ c)
theorem W7_arg (c : Dev nD) (b : Ref sig .tc) (hb : b = main_arg2 ∨ b = main_arg7) :
    W7 m ρ c (Proc.devRef .tc b) = m ((c : Thread nD τ).loc b) := by
  rcases hb with rfl | rfl <;> exact (W7_keep m ρ c _ (by simp)).trans (W6_arg m ρ c _ (by simp))

/-! ## The outlined choice of the second layer: its values pass through their buffers unchanged -/

theorem into_v57 (v : (⟨S50000, .f32⟩ : BufTy).Contents (Elt Ideal)) :
    (TRef.of (sig := sig) (T := ⟨S50000, .f32⟩) main_v57).toBuf (Val := Elt Ideal) v = v := rfl
theorem from_v55 (v : (Proc.devRef (τ := τ) .tc main_v55).ty.Contents (Elt Ideal)) :
    (TRef.of (sig := sig) (T := ⟨S50000, .i1⟩) main_v55).ofBuf (Val := Elt Ideal) v = v := rfl
theorem from_v56 (v : (Proc.devRef (τ := τ) .tc main_v56).ty.Contents (Elt Ideal)) :
    (TRef.of (sig := sig) (T := ⟨S50000, .f32⟩) main_v56).ofBuf (Val := Elt Ideal) v = v := rfl
theorem from_cst_12 (v : (Proc.devRef (τ := τ) .tc main_cst_12).ty.Contents (Elt Ideal)) :
    (TRef.of (sig := sig) (T := ⟨S_, .f32⟩) main_cst_12).ofBuf (Val := Elt Ideal) v = v := rfl
theorem through_call1_v0 (v : (⟨S_, .f32⟩ : BufTy).Contents (Elt Ideal)) :
    (TRef.of (sig := sig) (T := ⟨S_, .f32⟩) main_call1_v0).ofBuf (Val := Elt Ideal)
      ((TRef.of (sig := sig) (T := ⟨S_, .f32⟩) main_call1_v0).toBuf (Val := Elt Ideal) v) = v := rfl
theorem through_call1_v1 (v : (⟨S50000, .f32⟩ : BufTy).Contents (Elt Ideal)) :
    (TRef.of (sig := sig) (T := ⟨S50000, .f32⟩) main_call1_v1).ofBuf (Val := Elt Ideal)
      ((TRef.of (sig := sig) (T := ⟨S50000, .f32⟩) main_call1_v1).toBuf (Val := Elt Ideal) v) = v := rfl

/-! ## The second layer's host operations: the first layer's, over the second dense product -/

theorem W8_pos (c : Dev nD) : W8 m ρ c (Proc.devRef .tc main_v55)
    = cmpf .ogt (Cert.ReferenceIdeal.Spec.degOf (F := Ideal) (W7 m ρ c (Proc.devRef .tc main_v3)) (W7 m ρ c (Proc.devRef .tc main_arg2)))
        (broadcastInDim S50000 ![] bcast_S_S50000 (constant (F := Ideal) S_ .f32 0x00000000#32)) := by
  show StableHlo.after hostOps3 (W7 m ρ c) (Proc.devRef .tc main_v55) = _
  after_results_simp
  rfl

theorem W8_rsqrt (c : Dev nD) : W8 m ρ c (Proc.devRef .tc main_v56)
    = (Host.rsqrt (F := Ideal) (φ := .f32) (Cert.ReferenceIdeal.Spec.degOf (F := Ideal) (W7 m ρ c (Proc.devRef .tc main_v3)) (W7 m ρ c (Proc.devRef .tc main_arg2)))
        : (⟨S50000, .f32⟩ : BufTy).Contents (Elt Ideal)) := by
  show StableHlo.after hostOps3 (W7 m ρ c) (Proc.devRef .tc main_v56) = _
  after_results_simp
  rfl

theorem W8_zero (c : Dev nD) : W8 m ρ c (Proc.devRef .tc main_cst_12) = constant (F := Ideal) S_ .f32 0x00000000#32 := by
  show StableHlo.after hostOps3 (W7 m ρ c) (Proc.devRef .tc main_cst_12) = _
  after_results_simp <;> rfl

/-- The outlined choice, over whatever the three buffers it reads hold. -/
theorem W9_choice (c : Dev nD) : W9 m ρ c (Proc.devRef .tc main_v57)
    = select (W8 m ρ c (Proc.devRef .tc main_v55)) (W8 m ρ c (Proc.devRef .tc main_v56))
        (broadcastInDim S50000 ![] bcast_S_S50000 (id (W8 m ρ c (Proc.devRef .tc main_cst_12)))) := by
  show StableHlo.after hostOps3_1 (W8 m ρ c) (Proc.devRef .tc main_v57) = _
  generalize W8 m ρ c = X
  after_results_simp
  refine (into_v57 _).trans ?_
  have h1 := from_v55 (X (Proc.devRef .tc main_v55))
  have h2 := from_v56 (X (Proc.devRef .tc main_v56))
  have h3 := (through_call1_v1 _).trans (congrArg (broadcastInDim S50000 ![] bcast_S_S50000)
    ((through_call1_v0 _).trans (congrArg id (from_cst_12 (X (Proc.devRef .tc main_cst_12))))))
  rw [h1, h2, h3]

theorem W9_dinv (c : Dev nD) : W9 m ρ c (Proc.devRef .tc main_v57)
    = Cert.ReferenceIdeal.Spec.dinvOf (F := Ideal) (W7 m ρ c (Proc.devRef .tc main_v3)) (W7 m ρ c (Proc.devRef .tc main_arg2)) := by
  rw [W9_choice, W8_pos, W8_rsqrt, W8_zero]
  rfl

/-- The first two stretches write none of these. -/
theorem W9_keep (c : Dev nD) (b : Ref sig .tc)
    (hb : b = main_v1 ∨ b = main_v3 ∨ b = main_arg2 ∨ b = main_v48 ∨ b = main_arg7) :
    W9 m ρ c (Proc.devRef .tc b) = W7 m ρ c (Proc.devRef .tc b) := by
  show StableHlo.after hostOps3_1 (StableHlo.after hostOps3 (W7 m ρ c)) (Proc.devRef .tc b) = _
  rcases hb with rfl | rfl | rfl | rfl | rfl <;> (after_results_simp <;> rfl)

theorem W10_agg (c : Dev nD) : W10 m ρ c (Proc.devRef .tc main_v86)
    = Cert.ReferenceIdeal.Spec.aggOf (F := Ideal) (W9 m ρ c (Proc.devRef .tc main_v57)) (W9 m ρ c (Proc.devRef .tc main_v1))
        (W9 m ρ c (Proc.devRef .tc main_v3)) (W9 m ρ c (Proc.devRef .tc main_arg2)) (W9 m ρ c (Proc.devRef .tc main_v48)) := by
  show StableHlo.after hostOps3_2 (W9 m ρ c) (Proc.devRef .tc main_v86) = _
  generalize W9 m ρ c = X
  after_results_simp
  rfl

theorem W10_scale (c : Dev nD) : W10 m ρ c (Proc.devRef .tc main_v89)
    = Cert.ReferenceIdeal.Spec.scaleOf (F := Ideal) (W9 m ρ c (Proc.devRef .tc main_v57)) := by
  show StableHlo.after hostOps3_2 (W9 m ρ c) (Proc.devRef .tc main_v89) = _
  generalize W9 m ρ c = X
  after_results_simp
  rfl

theorem W10_bias (c : Dev nD) : W10 m ρ c (Proc.devRef .tc main_v90)
    = shapeCast S1x96 (W9 m ρ c (Proc.devRef .tc main_arg7)) shapeCasts_S96_S1x96 := by
  show StableHlo.after hostOps3_2 (W9 m ρ c) (Proc.devRef .tc main_v90) = _
  generalize W9 m ρ c = X
  after_results_simp
  rfl

/-- The last stretch does not write the second dense product. -/
theorem W10_keep (c : Dev nD) : W10 m ρ c (Proc.devRef .tc main_v48) = W9 m ρ c (Proc.devRef .tc main_v48) := by
  show StableHlo.after hostOps3_2 (W9 m ρ c) (Proc.devRef .tc main_v48) = _
  generalize W9 m ρ c = X
  after_results_simp <;> rfl

/-! ## The second combination: the result -/

/-- The result buffer, at the last boundary, holds the two layers of the arguments as launched. -/
theorem result (c : Dev nD) : W11 m ρ c (Proc.devRef .tc main_v91)
    = Cert.ReferenceIdeal.Spec.out (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W11_arr m ρ c 4).trans ((RegionCombine.combine3 (V10 m ρ) c).trans ?_)
  show Cert.ReferenceIdeal.Spec.combine2d (F := Ideal) (W10 m ρ c (Proc.devRef .tc main_v86)) (W10 m ρ c (Proc.devRef .tc main_v48))
    (W10 m ρ c (Proc.devRef .tc main_v89)) (W10 m ρ c (Proc.devRef .tc main_v90)) = _
  rw [W10_agg, W10_scale, W10_bias, W10_keep, W9_dinv, W9_keep m ρ c main_v1 (by simp),
    W9_keep m ρ c main_v3 (by simp), W9_keep m ρ c main_arg2 (by simp), W9_keep m ρ c main_v48 (by simp),
    W9_keep m ρ c main_arg7 (by simp), W7_dense, W7_row, W7_col, W7_arg m ρ c main_arg2 (by simp),
    W7_arg m ρ c main_arg7 (by simp), reshape_eq_rowBias]
  rfl

end Cert.KernelIdeal.KernelValue

end
-- ==== Proof.RefValue.lean ====
/-
  The reference program's result, read as the two layers of Spec.lean.

  The reference's run ends with its result buffer at the composed term of its 130 host operations applied to the
  arguments.  That term is, operation for operation, the second layer applied to the first: the layer's named pieces
  (source and target nodes, degree, normalisation, aggregation, self-loop factor, dense product, final combination)
  unfold to exactly the operations the reference lists, so the equation holds by unfolding the names.
-/
import proofs.«143305_j2671469658280_1_alg».proof.Proof.Gen.ReferenceIdeal.Run
import proofs.«143305_j2671469658280_1_alg».proof.Proof.Spec

set_option maxRecDepth 8192

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The reference's result is the two layers of the arguments as launched. -/
theorem res_eq (m : (ℓ : Loc nD τ sig) → Buf (Elt F) ℓ) (c : Dev nD) :
    Cert.ReferenceIdeal.Value.res_main_v99 m c
      = Spec.out (m ((c.tc : Thread nD τ).loc main_arg0)) (m ((c.tc : Thread nD τ).loc main_arg1))
          (m ((c.tc : Thread nD τ).loc main_arg2)) (m ((c.tc : Thread nD τ).loc main_arg4))
          (m ((c.tc : Thread nD τ).loc main_arg5)) (m ((c.tc : Thread nD τ).loc main_arg6))
          (m ((c.tc : Thread nD τ).loc main_arg7)) := by
  unfold Cert.ReferenceIdeal.Value.res_main_v99 Spec.out Spec.layer Spec.combine2d Spec.rowBias Spec.dense Spec.scaleOf
    Spec.aggOf Spec.normOf Spec.nidx Spec.dinvOf Spec.degOf Spec.rowOf Spec.colOf
  rfl

end Cert.ReferenceIdeal.RefValue

end
-- ==== Proof.lean ====
/-
  Two stacked graph-convolution layers: the kernel program against its reference, over the extended reals.

  Both programs compute, layer by layer, max ((agg + h · dinv²) + b, 0) where h = x · W is the dense product, dinv the
  inverse square root of a node's degree (0 where the degree is not positive) and agg the messages h[row] · dinv[row] ·
  w · dinv[col] summed into their target nodes.  The degree, normalisation and aggregation are the same host
  operations in both programs.  The kernel program computes h in a region that multiplies 2000-row blocks of x with
  W into a zero accumulator, which over the extended reals is the reference's contraction entry by entry, and the
  final combination in a region that applies the reference's own multiply, add, add and maximum block by block, in
  the same order of operands.  So both results are one function of the arguments (Spec.lean's `out`), and no law of
  arithmetic is used: the inputs' finiteness is never opened.

  The three frames: the kernel program's two are the generated frame certificates; the reference has no kernel, and
  its frame is its run with the result dropped.  The idealisation ledger is empty.
-/
import proofs.«143305_j2671469658280_1_alg».proof.Defs
import proofs.«143305_j2671469658280_1_alg».proof.Proof.Gen.Kernel
import proofs.«143305_j2671469658280_1_alg».proof.Proof.Gen.Kernel.Frame
import proofs.«143305_j2671469658280_1_alg».proof.Proof.Gen.KernelIdeal
import proofs.«143305_j2671469658280_1_alg».proof.Proof.Gen.KernelIdeal.Frame
import proofs.«143305_j2671469658280_1_alg».proof.Proof.Gen.ReferenceIdeal
import proofs.«143305_j2671469658280_1_alg».proof.Proof.Gen.ReferenceIdeal.Run
import proofs.«143305_j2671469658280_1_alg».proof.Proof.Gen.Pre_finite_inputs
import proofs.«143305_j2671469658280_1_alg».proof.Proof.Spec
import proofs.«143305_j2671469658280_1_alg».proof.Proof.RunValue
import proofs.«143305_j2671469658280_1_alg».proof.Proof.KernelValue
import proofs.«143305_j2671469658280_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with their result buffers at the two layers of the arguments; the arguments agree. -/
theorem algebraic : Cert.algebraic_KernelIdeal_ReferenceIdeal := by
  intro m ρ m' ρ' _ hagree
  refine ⟨fun c => Cert.ReferenceIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, _, e4, e5, e6, e7⟩ := hagree c
    rw [Cert.ReferenceIdeal.RefValue.res_eq, e0, e1, e2, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
